-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x64 : Shape := ⟨4, ![4, 8, 2048, 64]⟩
abbrev S4x8x2048x2048 : Shape := ⟨4, ![4, 8, 2048, 2048]⟩
abbrev S_ : Shape := ⟨0, ![]⟩

class Facts : Prop where
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  h_S_ : 0 < S_.numel
  bcast_S_S4x8x2048x2048 : S_.BroadcastsInDim S4x8x2048x2048 (![] : Fin 0 → Fin S4x8x2048x2048.rank)
  reducesTo_S4x8x2048x2048_S_d0_1_2_3 : S4x8x2048x2048.ReducesTo [0, 1, 2, 3] S_

variable [Facts]

def fn_part1 {F : FTy → Type} [FloatOps F] (main_arg4 : FVec F S4x8x2048x2048 .f32) (main_v13 : IVec S_ 1) (main_v16 : IVec S4x8x2048x2048 1) : IVec S_ 1 :=
  let main_c_5 : IVec S_ 1 := constantI S_ 1 1#1
  let main_v17 : IVec S_ 1 := (fun x v => Host.reduce IntOp.andi x v reducesTo_S4x8x2048x2048_S_d0_1_2_3 h_S_) main_v16 main_c_5
  let main_v18 : IVec S_ 1 := andi main_v13 main_v17
  let main_v19 : FVec F S4x8x2048x2048 .f32 := Host.absf main_arg4
  let main_cst_6 : FVec F S_ .f32 := constant S_ .f32 0x7F800000#32
  let main_v20 : FVec F S4x8x2048x2048 .f32 := broadcastInDim S4x8x2048x2048 ![] bcast_S_S4x8x2048x2048 main_cst_6
  let main_v21 : IVec S4x8x2048x2048 1 := cmpf .olt main_v19 main_v20
  let main_c_7 : IVec S_ 1 := constantI S_ 1 1#1
  let main_v22 : IVec S_ 1 := (fun x v => Host.reduce IntOp.andi x v reducesTo_S4x8x2048x2048_S_d0_1_2_3 h_S_) main_v21 main_c_7
  let main_v23 : IVec S_ 1 := andi main_v18 main_v22
  main_v23

def fn {F : FTy → Type} [FloatOps F] (main_arg0 : FVec F S4x8x2048x64 .f32) (main_arg1 : FVec F S4x8x2048x64 .f32) (main_arg2 : FVec F S4x8x2048x64 .f32) (main_arg3 : FVec F S4x8x2048x2048 .f32) (main_arg4 : FVec F S4x8x2048x2048 .f32) : IVec S_ 1 :=
  let main_v0 : FVec F S4x8x2048x64 .f32 := Host.absf main_arg0
  let main_cst : FVec F S_ .f32 := constant S_ .f32 0x7F800000#32
  let main_v1 : FVec F S4x8x2048x64 .f32 := broadcastInDim S4x8x2048x64 ![] bcast_S_S4x8x2048x64 main_cst
  let main_v2 : IVec S4x8x2048x64 1 := cmpf .olt main_v0 main_v1
  let main_c : IVec S_ 1 := constantI S_ 1 1#1
  let main_v3 : IVec S_ 1 := (fun x v => Host.reduce IntOp.andi x v reducesTo_S4x8x2048x64_S_d0_1_2_3 h_S_) main_v2 main_c
  let main_v4 : FVec F S4x8x2048x64 .f32 := Host.absf main_arg1
  let main_cst_0 : FVec F S_ .f32 := constant S_ .f32 0x7F800000#32
  let main_v5 : FVec F S4x8x2048x64 .f32 := broadcastInDim S4x8x2048x64 ![] bcast_S_S4x8x2048x64 main_cst_0
  let main_v6 : IVec S4x8x2048x64 1 := cmpf .olt main_v4 main_v5
  let main_c_1 : IVec S_ 1 := constantI S_ 1 1#1
  let main_v7 : IVec S_ 1 := (fun x v => Host.reduce IntOp.andi x v reducesTo_S4x8x2048x64_S_d0_1_2_3 h_S_) main_v6 main_c_1
  let main_v8 : IVec S_ 1 := andi main_v3 main_v7
  let main_v9 : FVec F S4x8x2048x64 .f32 := Host.absf main_arg2
  let main_cst_2 : FVec F S_ .f32 := constant S_ .f32 0x7F800000#32
  let main_v10 : FVec F S4x8x2048x64 .f32 := broadcastInDim S4x8x2048x64 ![] bcast_S_S4x8x2048x64 main_cst_2
  let main_v11 : IVec S4x8x2048x64 1 := cmpf .olt main_v9 main_v10
  let main_c_3 : IVec S_ 1 := constantI S_ 1 1#1
  let main_v12 : IVec S_ 1 := (fun x v => Host.reduce IntOp.andi x v reducesTo_S4x8x2048x64_S_d0_1_2_3 h_S_) main_v11 main_c_3
  let main_v13 : IVec S_ 1 := andi main_v8 main_v12
  let main_v14 : FVec F S4x8x2048x2048 .f32 := Host.absf main_arg3
  let main_cst_4 : FVec F S_ .f32 := constant S_ .f32 0x7F800000#32
  let main_v15 : FVec F S4x8x2048x2048 .f32 := broadcastInDim S4x8x2048x2048 ![] bcast_S_S4x8x2048x2048 main_cst_4
  let main_v16 : IVec S4x8x2048x2048 1 := cmpf .olt main_v14 main_v15
  fn_part1 (F := F) main_arg4 main_v13 main_v16
-- ==== Kernel.lean ====
abbrev S4x8x2048x64 : Shape := ⟨4, ![4, 8, 2048, 64]⟩
abbrev S4x8x2048x2048 : Shape := ⟨4, ![4, 8, 2048, 2048]⟩
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 14
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S4x8x2048x2048, .f32⟩
  | .hbm, ⟨4, _⟩ => ⟨S4x8x2048x2048, .f32⟩
  | .hbm, ⟨5, _⟩ => ⟨S32x2048x64, .f32⟩
  | .hbm, ⟨6, _⟩ => ⟨S32x2048x64, .f32⟩
  | .hbm, ⟨7, _⟩ => ⟨S32x2048x64, .f32⟩
  | .hbm, ⟨8, _⟩ => ⟨S32x2048x2048, .f32⟩
  | .hbm, ⟨9, _⟩ => ⟨S32x2048x2048, .f32⟩
  | .hbm, ⟨10, _⟩ => ⟨S32x2048x64, .f32⟩
  | .hbm, ⟨11, _⟩ => ⟨S32x2048x2048, .f32⟩
  | .hbm, ⟨12, _⟩ => ⟨S4x8x2048x64, .f32⟩
  | .hbm, ⟨13, _⟩ => ⟨S4x8x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x2048, .f32⟩
  | .local _ .vmem, ⟨7, _⟩ => ⟨S1x512x2048, .f32⟩
  | .local _ .vmem, ⟨8, _⟩ => ⟨S1x512x2048, .f32⟩
  | .local _ .vmem, ⟨9, _⟩ => ⟨S1x512x2048, .f32⟩
  | .local _ .vmem, ⟨10, _⟩ => ⟨S1x512x64, .f32⟩
  | .local _ .vmem, ⟨11, _⟩ => ⟨S1x512x64, .f32⟩
  | .local _ .vmem, ⟨12, _⟩ => ⟨S1x512x2048, .f32⟩
  | .local _ .vmem, ⟨13, _⟩ => ⟨S1x512x2048, .f32⟩
  | _, _ => ⟨S4x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4x8x2048x64_S32x2048x64 : S4x8x2048x64.ShapeCasts S32x2048x64
  shapeCasts_S4x8x2048x2048_S32x2048x2048 : S4x8x2048x2048.ShapeCasts S32x2048x2048
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  shapeCasts_S512x64_S1x512x64 : S512x64.ShapeCasts S1x512x64
  shapeCasts_S32x2048x64_S4x8x2048x64 : S32x2048x64.ShapeCasts S4x8x2048x64
  shapeCasts_S32x2048x2048_S4x8x2048x2048 : S32x2048x2048.ShapeCasts S4x8x2048x2048
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S32x2048x2048.size a
  hwx0_3 : ∀ i : grid0.Coords, EltTy.bits .f32 = 32 ∨ (Rect.block (s := S32x2048x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S32x2048x2048.size a
  hwx0_4 : ∀ i : grid0.Coords, EltTy.bits .f32 = 32 ∨ (Rect.block (s := S32x2048x2048) S1x512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x64.size a ≤ S32x2048x64.size a
  hwx0_5 : ∀ i : grid0.Coords, EltTy.bits .f32 = 32 ∨ (Rect.block (s := S32x2048x64) S1x512x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x2048.size a ≤ S32x2048x2048.size a
  hwx0_6 : ∀ i : grid0.Coords, EltTy.bits .f32 = 32 ∨ (Rect.block (s := S32x2048x2048) S1x512x2048.size (cc0_transform_6 i) (hinb0_6 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S1x512x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S1x512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x8x2048x64 : Shape := ⟨4, ![4, 8, 2048, 64]⟩
abbrev S4x8x2048x2048 : Shape := ⟨4, ![4, 8, 2048, 2048]⟩
abbrev S_ : Shape := ⟨0, ![]⟩
abbrev S4x8x2048 : Shape := ⟨3, ![4, 8, 2048]⟩
abbrev S4x8x2048x1 : Shape := ⟨4, ![4, 8, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S4x8x2048x2048, .f32⟩
  | .hbm, ⟨4, _⟩ => ⟨S4x8x2048x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x8x2048x64, .f32⟩
  | .hbm, ⟨10, _⟩ => ⟨S4x8x2048x64, .f32⟩
  | .hbm, ⟨11, _⟩ => ⟨S4x8x2048x2048, .f32⟩
  | .hbm, ⟨12, _⟩ => ⟨S4x8x2048x2048, .f32⟩
  | .hbm, ⟨13, _⟩ => ⟨S4x8x2048x2048, .f32⟩
  | .hbm, ⟨14, _⟩ => ⟨S_, .f32⟩
  | .hbm, ⟨15, _⟩ => ⟨S4x8x2048x2048, .f32⟩
  | .hbm, ⟨16, _⟩ => ⟨S4x8x2048x2048, .f32⟩
  | .hbm, ⟨17, _⟩ => ⟨S4x8x2048x2048, .f32⟩
  | .hbm, ⟨18, _⟩ => ⟨S_, .f32⟩
  | .hbm, ⟨19, _⟩ => ⟨S4x8x2048, .f32⟩
  | .hbm, ⟨20, _⟩ => ⟨S_, .f32⟩
  | .hbm, ⟨21, _⟩ => ⟨S4x8x2048, .f32⟩
  | .hbm, ⟨22, _⟩ => ⟨S4x8x2048, .f32⟩
  | .hbm, ⟨23, _⟩ => ⟨S4x8x2048x1, .f32⟩
  | .hbm, ⟨24, _⟩ => ⟨S4x8x2048x2048, .f32⟩
  | .hbm, ⟨25, _⟩ => ⟨S4x8x2048x2048, .f32⟩
  | .hbm, ⟨26, _⟩ => ⟨S4x8x2048x2048, .f32⟩
  | .hbm, ⟨27, _⟩ => ⟨S_, .f32⟩
  | .hbm, ⟨28, _⟩ => ⟨S4x8x2048, .f32⟩
  | .hbm, ⟨29, _⟩ => ⟨S4x8x2048x1, .f32⟩
  | .hbm, ⟨30, _⟩ => ⟨S4x8x2048x2048, .f32⟩
  | .hbm, ⟨31, _⟩ => ⟨S4x8x2048x2048, .f32⟩
  | .hbm, ⟨32, _⟩ => ⟨S4x8x2048x64, .f32⟩
  | _, _ => ⟨S4x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S_S4x8x2048x64 : S_.BroadcastsInDim S4x8x2048x64 (![] : Fin 0 → Fin S4x8x2048x64.rank)
  bcast_S_S4x8x2048x2048 : S_.BroadcastsInDim S4x8x2048x2048 (![] : Fin 0 → Fin S4x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.Attention.lean ====
/-
  Scaled dot-product attention with an additive bias and a Gaussian distance penalty, as functions on the
  extended reals, row by row.

  For a query row `(b, h, q)` the logits are
    `a k = (∑ d, (Q[b,h,q,d] · s) · K[b,h,k,d]) + B[b,h,q,k] + c · (G[b,h,q,k] · G[b,h,q,k])`,
  the row maximum `M = max_k a k` (a fold of `max` from the bottom element), the shifted exponentials
  `e k = exp (a k - M)`, their sum `D = ∑ k, e k`, and the softmax weights either as the product with the
  reciprocal, `e k · (1 / D)`, or as the quotient `e k / D`.  The attention output is `∑ k, w k · V[b,h,k,d]`.

  The two spellings of the weights agree as soon as `D ≠ 0`, which holds when every logit is a real number: the
  maximum of finitely many reals is attained, so one exponent is `0`, one exponential is `1`, and `D ≥ 1`.
  On the extended reals the hypothesis cannot be dropped: a row holding `+∞` has `M = +∞`, every exponent `-∞`,
  every exponential `0`, and then `0 · (1 / 0) = 0` while `0 / 0` is the bottom element.
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-! ## A row of logits -/

/-- The maximum of a row: the fold of `max` from `-∞` (the pattern `0xFF800000`). -/
def rowMax {n : Nat} (a : Fin n → EReal) : EReal :=
  (Finset.univ : Finset (Fin n)).fold max (Ideal.ofBits .f32 0xFF800000#32) a

/-- The exponential of a logit shifted by the row maximum. -/
def rowExp {n : Nat} (a : Fin n → EReal) (k : Fin n) : EReal := Ideal.exp (a k - rowMax a)

/-- The softmax denominator. -/
def rowDen {n : Nat} (a : Fin n → EReal) : EReal := ∑ k : Fin n, rowExp a k

/-- The softmax weight as the product with the reciprocal of the denominator (`1.0` is the pattern `0x3F800000`). -/
def softMul {n : Nat} (a : Fin n → EReal) (k : Fin n) : EReal :=
  rowExp a k * Ideal.div (Ideal.ofBits .f32 0x3F800000#32) (rowDen a)

/-- The softmax weight as the quotient by the denominator. -/
def softDiv {n : Nat} (a : Fin n → EReal) (k : Fin n) : EReal := Ideal.div (rowExp a k) (rowDen a)

/-! ## The arrays -/

/-- Queries, keys and values: `[4, 8, 2048, 64]`. -/
abbrev QKV := (⟨4, ![4, 8, 2048, 64]⟩ : Shape).Idx → EReal
/-- Bias, distance and weights: `[4, 8, 2048, 2048]`. -/
abbrev SS := (⟨4, ![4, 8, 2048, 2048]⟩ : Shape).Idx → EReal

/-- The scale `0.125` as the kernel spells it (the pattern `0x3E000000`). -/
def scaleLit : EReal := Ideal.ofBits .f32 0x3E000000#32
/-- The scale as the reference computes it: `1 / √64`. -/
def scaleSqrt : EReal := Ideal.div (Ideal.ofBits .f32 0x3F800000#32) (Ideal.sqrt (Ideal.ofBits .f32 0x42800000#32))

/-- The logits of query row `(b, h, q)` under the scale `s` (`-0.5` is the pattern `0xBF000000`). -/
def logit (s : EReal) (Q K : QKV) (B G : SS) (b : Fin 4) (h : Fin 8) (q : Fin 2048) : Fin 2048 → EReal := fun k =>
  (∑ d : Fin 64, (Q (ix4 b h q d) * s) * K (ix4 b h k d)) + B (ix4 b h q k)
    + Ideal.ofBits .f32 0xBF000000#32 * (G (ix4 b h q k) * G (ix4 b h q k))

/-- The attention weights, product form, under the literal scale: what the kernel computes. -/
def weights (Q K : QKV) (B G : SS) : SS := fun i =>
  softMul (logit scaleLit Q K B G (i 0) (i 1) (i 2)) (i 3)

/-- The attention output under those weights. -/
def output (Q K V : QKV) (B G : SS) : QKV := fun i =>
  ∑ k : Fin 2048, weights Q K B G (ix4 (i 0) (i 1) (i 2) k) * V (ix4 (i 0) (i 1) k (i 3))

/-- The attention weights, quotient form, under the computed scale: what the reference computes. -/
def weightsRef (Q K : QKV) (B G : SS) : SS := fun i =>
  softDiv (logit scaleSqrt Q K B G (i 0) (i 1) (i 2)) (i 3)

/-- The attention output under the reference's weights. -/
def outputRef (Q K V : QKV) (B G : SS) : QKV := fun i =>
  ∑ k : Fin 2048, weightsRef Q K B G (ix4 (i 0) (i 1) (i 2) k) * V (ix4 (i 0) (i 1) k (i 3))

/-- Every entry of an array is a real number. -/
def IsReal {ι : Type} (f : ι → EReal) : Prop := ∀ i, ∃ r : ℝ, f i = (r : EReal)

end Cert.Attention

end
-- ==== Proof.AttentionLaws.lean ====
/-
  The two spellings of the attention weights are one function when the inputs are real.

  * The scale: `1 / √64 = 1/8`, the number the pattern `0x3E000000` denotes.
  * A row of real logits: the maximum of finitely many reals is attained at some `k₀`, so the shifted exponent at
    `k₀` is `0`, its exponential `1`, every other exponential a positive real, and the denominator a positive
    real; off zero the quotient `e / D` is the product `e · (1 / D)`.
  * The logits are real when `Q`, `K`, the bias and the distances are: finite sums and products of reals.
-/
import proofs.«401613_j6262062318237_3_alg».proof.Proof.Attention

noncomputable section

namespace Cert.Attention

open Idealize.ShloMosaic Idealize.ShloMosaic.ValueIdx

/-! ## The constants -/

theorem ofBits_one : Ideal.ofBits .f32 0x3F800000#32 = 1 := by
  simp [Ideal.ofBits, Ideal.ieee, -EReal.coe_mul]; norm_num

theorem ofBits_sixtyfour : Ideal.ofBits .f32 0x42800000#32 = ((64 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_neg_half : Ideal.ofBits .f32 0xBF000000#32 = ((-1 / 2 : ℝ) : EReal) := by
  simp [Ideal.ofBits, Ideal.ieee, -EReal.coe_mul]; norm_num

theorem ofBits_neg_inf : Ideal.ofBits .f32 0xFF800000#32 = ⊥ := by
  simp [Ideal.ofBits, Ideal.ieee]

theorem sqrt_sixtyfour : Real.sqrt 64 = 8 := by
  rw [show (64 : ℝ) = 8 ^ 2 by norm_num]; exact Real.sqrt_sq (by norm_num)

/-- `1 / √64` is the eighth. -/
theorem scaleSqrt_eq : scaleSqrt = scaleLit := by
  unfold scaleSqrt scaleLit
  rw [ofBits_one, ofBits_sixtyfour, ofBits_eighth, Ideal.sqrt_coe, if_neg (by norm_num), sqrt_sixtyfour,
    Ideal.div_coe (by norm_num : (8 : ℝ) ≠ 0), one_mul]

theorem scaleLit_real : ∃ r : ℝ, scaleLit = (r : EReal) := ⟨1 / 8, ofBits_eighth⟩

/-! ## Sums of reals -/

theorem coe_sum {ι : Type} (s : Finset ι) (f : ι → ℝ) : ((∑ i ∈ s, f i : ℝ) : EReal) = ∑ i ∈ s, (f i : EReal) :=
  map_sum (⟨⟨fun r : ℝ => (r : EReal), EReal.coe_zero⟩, EReal.coe_add⟩ : ℝ →+ EReal) f s

/-! ## A row of real logits -/

/-- Off zero, the quotient is the product with the reciprocal. -/
theorem div_eq_mul_div_one {x d : EReal} (hd : d ≠ 0) : Ideal.div x d = x * Ideal.div 1 d := by
  unfold Ideal.div; rw [if_neg hd, if_neg hd, one_mul]

/-- The maximum of a nonempty row of reals is one of its entries. -/
theorem rowMax_attained {n : Nat} (hn : 0 < n) (a : Fin n → EReal) : ∃ k₀, rowMax a = a k₀ := by
  haveI : Nonempty (Fin n) := ⟨⟨0, hn⟩⟩
  obtain ⟨k₀, -, hk₀⟩ := Finset.exists_max_image (Finset.univ : Finset (Fin n)) a Finset.univ_nonempty
  refine ⟨k₀, le_antisymm ?_ ?_⟩
  · unfold rowMax
    rw [Finset.fold_max_le]
    exact ⟨by rw [ofBits_neg_inf]; exact bot_le, fun x hx => hk₀ x hx⟩
  · unfold rowMax
    rw [Finset.le_fold_max]
    exact Or.inr ⟨k₀, Finset.mem_univ _, le_rfl⟩

/-- For a nonempty row of reals the two spellings of the softmax weight agree. -/
theorem softDiv_eq_softMul {n : Nat} (hn : 0 < n) (a : Fin n → EReal) (ha : ∀ k, ∃ r : ℝ, a k = (r : EReal)) (k : Fin n) :
    softDiv a k = softMul a k := by
  choose f hf using ha
  obtain ⟨k₀, hk₀⟩ := rowMax_attained hn a
  have hexp : ∀ j, rowExp a j = ((Real.exp (f j - f k₀) : ℝ) : EReal) := fun j => by
    unfold rowExp; rw [hk₀, hf j, hf k₀, ← EReal.coe_sub, Ideal.exp_coe]
  have hden : rowDen a = ((∑ j : Fin n, Real.exp (f j - f k₀) : ℝ) : EReal) := by
    unfold rowDen; rw [coe_sum]; exact Finset.sum_congr rfl fun j _ => hexp j
  have hpos : (0 : ℝ) < ∑ j : Fin n, Real.exp (f j - f k₀) :=
    Finset.sum_pos (fun j _ => Real.exp_pos _) ⟨k₀, Finset.mem_univ _⟩
  have hne : rowDen a ≠ 0 := by rw [hden]; exact_mod_cast hpos.ne'
  unfold softDiv softMul
  rw [div_eq_mul_div_one hne, ofBits_one]

/-! ## The logits are real -/

theorem logit_real {s : EReal} (hs : ∃ r : ℝ, s = (r : EReal)) {Q K : QKV} {B G : SS}
    (hQ : IsReal Q) (hK : IsReal K) (hB : IsReal B) (hG : IsReal G) (b : Fin 4) (h : Fin 8) (q : Fin 2048) :
    ∀ k, ∃ r : ℝ, logit s Q K B G b h q k = (r : EReal) := by
  intro k
  obtain ⟨sr, rfl⟩ := hs
  choose qf hq using hQ
  choose kf hk using hK
  choose bf hb using hB
  choose gf hg using hG
  refine ⟨(∑ d : Fin 64, (qf (ix4 b h q d) * sr) * kf (ix4 b h k d)) + bf (ix4 b h q k)
      + (-1 / 2) * (gf (ix4 b h q k) * gf (ix4 b h q k)), ?_⟩
  unfold logit
  rw [ofBits_neg_half, EReal.coe_add, EReal.coe_add, coe_sum, EReal.coe_mul, EReal.coe_mul, hb, hg]
  refine congrArg (· + _ + _) (Finset.sum_congr rfl fun d _ => ?_)
  rw [hq, hk, EReal.coe_mul, EReal.coe_mul]

/-! ## The arrays -/

/-- On real inputs the reference's weights are the kernel's. -/
theorem weightsRef_eq {Q K : QKV} {B G : SS} (hQ : IsReal Q) (hK : IsReal K) (hB : IsReal B) (hG : IsReal G) :
    weightsRef Q K B G = weights Q K B G := by
  funext i
  unfold weightsRef weights
  rw [scaleSqrt_eq]
  exact softDiv_eq_softMul (by norm_num) _ (logit_real scaleLit_real hQ hK hB hG (i 0) (i 1) (i 2)) (i 3)

/-- And so are the outputs. -/
theorem outputRef_eq {Q K : QKV} {B G : SS} (V : QKV) (hQ : IsReal Q) (hK : IsReal K) (hB : IsReal B) (hG : IsReal G) :
    outputRef Q K V B G = output Q K V B G := by
  funext i
  unfold outputRef output
  rw [weightsRef_eq hQ hK hB hG]

end Cert.Attention

end
-- ==== Proof.RefAttention.lean ====
/-
  The reference program's two results are the specification's reference forms.

  Read index by index, the reference computes for the query row (b, h, q) the logits
    a k = (∑ d, (Q[b,h,q,d] · (1 / √64)) · K[b,h,k,d]) + B[b,h,q,k] + (-0.5) · (G[b,h,q,k] · G[b,h,q,k]),
  their maximum as max (-∞) (fold of max from -∞ over k), which is the fold itself, the shifted exponentials
  exp (a k - M), their sum from the initial value 0, the quotient of each exponential by that sum, and the
  contraction of those weights with V over k.  Each step is one operation of the program; the only one that
  needs an argument beyond reading is the maximum, where the outer max with -∞ is absorbed by the fold that
  already starts from -∞.
-/
import proofs.«401613_j6262062318237_3_alg».proof.Proof.Gen.ReferenceIdeal.Read
import proofs.«401613_j6262062318237_3_alg».proof.Proof.Attention
import Idealize.ShloMosaic.PureOps.Reduce
import Idealize.ShloMosaic.PureOps.Ideal.Laws
import Idealize.ShloMosaic.Lib.ValueIdx
import Mathlib.Data.Finset.Fold

noncomputable section

namespace Cert.ReferenceIdeal.RefValue

open Cert.ReferenceIdeal Cert.ReferenceIdeal.Gen Idealize.ShloMosaic Idealize.ShloMosaic.ValueIdx Cert.Attention

/-! ## The logits -/

/-- The sum of the scaled query–key products, the bias and the distance penalty, at (b, h, q, k), is the
    specification's logit under the computed scale. -/
theorem logit_eq (Q K : QKV) (B G : SS) (b : Fin 4) (h : Fin 8) (q k : Fin 2048) :
    Read.val_main_v9 (F := Ideal) Q K B G (ix4 b h q k) = logit scaleSqrt Q K B G b h q k := by
  have el : ∀ d : Fin 64, Read.lidx_main_v4 (ix4 b h q k) d = ix4 b h q d := fun d => funext fun a => Fin.ext (by
    match a with | ⟨0, _⟩ => rfl | ⟨1, _⟩ => rfl | ⟨2, _⟩ => rfl | ⟨3, _⟩ => rfl)
  have er : ∀ d : Fin 64, Read.ridx_main_v4 (ix4 b h q k) d = ix4 b h k d := fun d => funext fun a => Fin.ext (by
    match a with | ⟨0, _⟩ => rfl | ⟨1, _⟩ => rfl | ⟨2, _⟩ => rfl | ⟨3, _⟩ => rfl)
  rw [Read.val_main_v9_apply, Read.val_main_v5_apply, Read.val_main_v4_apply, Read.val_main_v8_apply,
    Read.val_main_v7_apply, Read.val_main_cst_1_apply, Read.val_main_v6_apply]
  simp only [el, er, Read.val_main_v3_apply, Read.val_main_v2_apply, Read.val_main_v1_apply,
    Read.val_main_cst_0_apply, Read.val_main_v0_apply, Read.val_main_cst_apply, Ideal.mulf_def, Ideal.addf_def,
    Ideal.hostDivf_def, Ideal.hostUnary_sqrt_def, Ideal.ofBits_def]
  rfl

/-! ## The row maximum -/

/-- The reduction with max over the last axis, read at (b, h, q): the fold of max from the initial value -∞
    over the coordinates k of that axis. -/
theorem val_main_v10_apply (Q K : QKV) (B G : SS) (b : Fin 4) (h : Fin 8) (q : Fin 2048) :
    Read.val_main_v10 (F := Ideal) Q K B G (ix3 b h q)
      = (Finset.univ : Finset (Fin 2048)).fold max (Ideal.ofBits .f32 0xFF800000#32)
          (fun k => Read.val_main_v9 (F := Ideal) Q K B G (ix4 b h q k)) := by
  unfold Read.val_main_v10
  generalize Read.val_main_v9 (F := Ideal) Q K B G = y
  have hr : S4x8x2048x2048.Reduces [3] S4x8x2048 := by decide
  refine (Host.reduce_eq_fold_single (FloatOps.maximumf (F := Ideal) (φ := .f32)) y
    (Read.val_main_cst_2 (F := Ideal)) reducesTo_S4x8x2048x2048_S4x8x2048_d3 hr h_S_ (ix3 b h q)).trans ?_
  have e : (y ∘ hr.lift (ix3 b h q)) = fun k : Fin 2048 => y (ix4 b h q k) := funext fun k =>
    congrArg y (funext fun a => Fin.ext (by
      match a with | ⟨0, _⟩ => rfl | ⟨1, _⟩ => rfl | ⟨2, _⟩ => rfl | ⟨3, _⟩ => rfl))
  rw [e]
  rfl

/-- The reference's row maximum, max (-∞) (fold of max from -∞), is the fold: the specification's row maximum. -/
theorem rowMax_eq (Q K : QKV) (B G : SS) (b : Fin 4) (h : Fin 8) (q : Fin 2048) :
    Read.val_main_v12 (F := Ideal) Q K B G (ix3 b h q) = rowMax (logit scaleSqrt Q K B G b h q) := by
  rw [Read.val_main_v12_apply, Read.val_main_v11_apply, Read.val_main_cst_3_apply, val_main_v10_apply,
    Ideal.maximumf_def, Ideal.ofBits_def]
  simp only [logit_eq]
  exact max_eq_right ((Finset.le_fold_max _).mpr (Or.inl le_rfl))

/-! ## The exponentials, their sum and the weights -/

/-- The shifted exponential at (b, h, q, k). -/
theorem rowExp_eq (Q K : QKV) (B G : SS) (b : Fin 4) (h : Fin 8) (q k : Fin 2048) :
    Read.val_main_v16 (F := Ideal) Q K B G (ix4 b h q k) = rowExp (logit scaleSqrt Q K B G b h q) k := by
  have e : Read.idx_main_v13 (Read.idx_main_v14 (ix4 b h q k)) = ix3 b h q := funext fun a => Fin.ext (by
    match a with | ⟨0, _⟩ => rfl | ⟨1, _⟩ => rfl | ⟨2, _⟩ => rfl)
  rw [Read.val_main_v16_apply, Read.val_main_v15_apply, Read.val_main_v14_apply, Read.val_main_v13_apply, e,
    rowMax_eq, logit_eq, Ideal.hostUnary_exp_def, Ideal.subf_def]
  rfl

/-- The softmax denominator at (b, h, q): the sum from the initial value 0. -/
theorem rowDen_eq (Q K : QKV) (B G : SS) (b : Fin 4) (h : Fin 8) (q : Fin 2048) :
    Read.val_main_v17 (F := Ideal) Q K B G (ix3 b h q) = rowDen (logit scaleSqrt Q K B G b h q) := by
  have e : ∀ k : Fin 2048, Read.idx_main_v17 (ix3 b h q) k = ix4 b h q k := fun k => funext fun a => Fin.ext (by
    match a with | ⟨0, _⟩ => rfl | ⟨1, _⟩ => rfl | ⟨2, _⟩ => rfl | ⟨3, _⟩ => rfl)
  rw [Read.val_main_v17_apply, Read.val_main_cst_4_apply, Ideal.ofBits_def, Ideal.ofBits_zero_f32, zero_add]
  simp only [e, rowExp_eq]
  rfl

/-- The weight at (b, h, q, k): the quotient of the exponential by the denominator. -/
theorem weights_apply (Q K : QKV) (B G : SS) (b : Fin 4) (h : Fin 8) (q k : Fin 2048) :
    Read.val_main_v20 (F := Ideal) Q K B G (ix4 b h q k) = softDiv (logit scaleSqrt Q K B G b h q) k := by
  have e : Read.idx_main_v18 (Read.idx_main_v19 (ix4 b h q k)) = ix3 b h q := funext fun a => Fin.ext (by
    match a with | ⟨0, _⟩ => rfl | ⟨1, _⟩ => rfl | ⟨2, _⟩ => rfl)
  rw [Read.val_main_v20_apply, Read.val_main_v19_apply, Read.val_main_v18_apply, e, rowDen_eq, rowExp_eq,
    Ideal.hostDivf_def]
  rfl

/-- The reference's weights are the specification's reference weights. -/
theorem weights_eq (Q K : Cert.Attention.QKV) (B G : Cert.Attention.SS) :
    Cert.ReferenceIdeal.Read.val_main_v20 (F := Ideal) Q K B G = Cert.Attention.weightsRef Q K B G := by
  funext i
  obtain ⟨b, h, q, k, rfl⟩ : ∃ b h q k, i = ix4 b h q k := ⟨i 0, i 1, i 2, i 3, eq_ix4 i⟩
  rw [weights_apply]
  rfl

/-! ## The output -/

/-- The reference's output is the specification's reference output. -/
theorem output_eq (Q K V : Cert.Attention.QKV) (B G : Cert.Attention.SS) :
    Cert.ReferenceIdeal.Read.val_main_v21 (F := Ideal) Q K V B G = Cert.Attention.outputRef Q K V B G := by
  funext i
  obtain ⟨b, h, q, d, rfl⟩ : ∃ b h q d, i = ix4 b h q d := ⟨i 0, i 1, i 2, i 3, eq_ix4 i⟩
  have el : ∀ k : Fin 2048, Read.lidx_main_v21 (ix4 b h q d) k = ix4 b h q k := fun k => funext fun a => Fin.ext (by
    match a with | ⟨0, _⟩ => rfl | ⟨1, _⟩ => rfl | ⟨2, _⟩ => rfl | ⟨3, _⟩ => rfl)
  have er : ∀ k : Fin 2048, Read.ridx_main_v21 (ix4 b h q d) k = ix4 b h k d := fun k => funext fun a => Fin.ext (by
    match a with | ⟨0, _⟩ => rfl | ⟨1, _⟩ => rfl | ⟨2, _⟩ => rfl | ⟨3, _⟩ => rfl)
  rw [Read.val_main_v21_apply, weights_eq]
  simp only [el, er]
  rfl

end Cert.ReferenceIdeal.RefValue

end
-- ==== Proof.InputsReal.lean ====
/-
  From the finiteness precondition to real-valued inputs.

  The precondition is the conjunction of five tests, one per input array: every entry `x` satisfies `|x| < +∞`,
  where `|x| = max x (-x)` on the extended reals and `+∞` is the pattern `0x7F800000`.  An extended real is
  `-∞`, `+∞` or a real number; for `-∞` the absolute value is `max (-∞) (+∞) = +∞`, for `+∞` it is
  `max (+∞) (-∞) = +∞`, and `+∞ < +∞` is false, so only the real case survives, and there the entry itself is the witness.
-/
import proofs.«401613_j6262062318237_3_alg».proof.Pre_finite_inputs
import proofs.«401613_j6262062318237_3_alg».proof.Proof.Gen.Pre_finite_inputs
import proofs.«401613_j6262062318237_3_alg».proof.Proof.Attention
import Idealize.ShloMosaic.Lib.ReduceAll
import Idealize.ShloMosaic.Lib.IdealHost
import Idealize.ShloMosaic.Lib.ValueIdx
import Idealize.ShloMosaic.PureOps.Ideal.Laws

noncomputable section

namespace Cert.Proof.InputsReal

open Idealize.ShloMosaic Idealize.ShloMosaic.ValueIdx

/-- The pattern `0x7F800000` is `+∞`. -/
theorem ofBits_posInf : Ideal.ofBits .f32 0x7F800000#32 = (⊤ : EReal) := by
  simp [Ideal.ofBits, Ideal.ieee]

/-- An extended real whose absolute value is below `+∞` is a real number. -/
theorem real_of_abs_lt_top (x : EReal)
    (h : Ideal.cmp .olt (max x (-x)) (Ideal.ofBits .f32 0x7F800000#32) = 1#1) : ∃ r : ℝ, x = (r : EReal) := by
  rw [ofBits_posInf] at h
  induction x using EReal.rec with
  | bot => simp [Ideal.cmp] at h
  | top => simp [Ideal.cmp] at h
  | coe r => exact ⟨r, rfl⟩

/-- The rank-0 shape has a single index. -/
theorem subsingleton_idx0 : Subsingleton (⟨0, ![]⟩ : Shape).Idx := ⟨fun a b => funext fun d => d.elim0⟩

/-- One `all (|x| < +∞)` test that came out true: every entry of the array is a real number. -/
theorem isReal_of_all {S : Shape} {axes : List (Fin S.rank)} (X : S.Idx → EReal)
    (hb : (⟨0, ![]⟩ : Shape).BroadcastsInDim S ![]) (hr : S.ReducesTo axes (⟨0, ![]⟩ : Shape))
    (hu : 0 < (⟨0, ![]⟩ : Shape).numel) (init : (⟨0, ![]⟩ : Shape).Idx → BitVec 1)
    (h : Host.reduce IntOp.andi
        (cmpf (F := Ideal) (φ := .f32) .olt (Host.absf (F := Ideal) (φ := .f32) X)
          (broadcastInDim S ![] hb (constant (F := Ideal) (⟨0, ![]⟩ : Shape) .f32 0x7F800000#32)))
        init hr hu ix0 = 1#1) : Cert.Attention.IsReal X := by
  intro i
  haveI := subsingleton_idx0
  have hi := Host.reduce_andi_all _ init hr hu ix0 h i
  rw [cmpf_apply, broadcastInDim_scalar_apply, constant_apply] at hi
  exact real_of_abs_lt_top (X i) hi

theorem isReal_of_pre (Q K V : Cert.Attention.QKV) (B G : Cert.Attention.SS)
    (h : Cert.Pre_finite_inputs.fn (F := Ideal) Q K V B G = fun _ => 1#1) :
    Cert.Attention.IsReal Q ∧ Cert.Attention.IsReal K ∧ Cert.Attention.IsReal V ∧ Cert.Attention.IsReal B ∧ Cert.Attention.IsReal G := by
  have h0 := congrFun h ValueIdx.ix0
  dsimp only [Cert.Pre_finite_inputs.fn, Cert.Pre_finite_inputs.fn_part1] at h0
  obtain ⟨h1, hG⟩ := IntOp.andi_eq_one.1 h0
  obtain ⟨h2, hB⟩ := IntOp.andi_eq_one.1 h1
  obtain ⟨h3, hV⟩ := IntOp.andi_eq_one.1 h2
  obtain ⟨hQ, hK⟩ := IntOp.andi_eq_one.1 h3
  exact ⟨isReal_of_all Q _ _ _ _ hQ, isReal_of_all K _ _ _ _ hK, isReal_of_all V _ _ _ _ hV,
    isReal_of_all B _ _ _ _ hB, isReal_of_all G _ _ _ _ hG⟩

end Cert.Proof.InputsReal

end
-- ==== Proof.KernelBlocks.lean ====
/-
  Where the tiles of the attention kernel sit in its arrays.

  The grid has 32 · 4 points; point `t` works on batch-head `t / 4` and on the query rows
  `(t % 4) · 512 … (t % 4) · 512 + 511`.  The query, bias, distance, output and weights tiles move with both
  coordinates; the key and value tiles with the batch-head alone.  The five arrays the region reads are the
  arguments with their two leading axes `[4, 8]` merged into one of extent `32` (index `b · 8 + h`), and the two
  results are the region's two output arrays with that axis split again.
-/
import proofs.«401613_j6262062318237_3_alg».proof.Proof.Gen.KernelIdeal.Frame
import proofs.«401613_j6262062318237_3_alg».proof.Proof.Attention
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The grid -/

/-- The printed index maps, decided over the 128 points. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = t.val % 4 ∧ win0_3.index t (2 : Fin 3) = 0
    ∧ win0_4.index t (0 : Fin 3) = t.val / 4 ∧ win0_4.index t (1 : Fin 3) = t.val % 4 ∧ win0_4.index t (2 : Fin 3) = 0
    ∧ win0_5.index t (0 : Fin 3) = t.val / 4 ∧ win0_5.index t (1 : Fin 3) = t.val % 4 ∧ win0_5.index t (2 : Fin 3) = 0
    ∧ win0_6.index t (0 : Fin 3) = t.val / 4 ∧ win0_6.index t (1 : Fin 3) = t.val % 4 ∧ win0_6.index t (2 : Fin 3) = 0 :=
  (by decide +kernel : ∀ t : Fin grid0.N, _)

theorem lt_N (t : Fin cfg0.N) : t.val < 128 := lt_of_lt_of_eq t.isLt N_0

/-- The batch-head a point works on. -/
def bhOf (t : Fin cfg0.N) : Fin 32 := ⟨t.val / 4, by have := lt_N t; omega⟩
/-- The array row of row `r` of a point's tile. -/
def rowOf (t : Fin cfg0.N) (r : Fin 512) : Fin 2048 := ⟨(t.val % 4) * 512 + r.val, by have := r.isLt; omega⟩
/-- The point that works on batch-head `x` and holds array row `q`. -/
def pointOf (x : Fin 32) (q : Fin 2048) : Fin cfg0.N :=
  ⟨x.val * 4 + q.val / 512, lt_of_lt_of_eq (by have := x.isLt; have := q.isLt; omega : x.val * 4 + q.val / 512 < 128) N_0.symm⟩

/-- The batch of a merged batch-head index. -/
def hi (x : Fin 32) : Fin 4 := ⟨x.val / 8, by have := x.isLt; omega⟩
/-- The head of a merged batch-head index. -/
def lo (x : Fin 32) : Fin 8 := ⟨x.val % 8, Nat.mod_lt _ (by norm_num)⟩

/-! ## Where a tile's entry sits in its array -/

theorem emb0 (t : Fin cfg0.N) (y : S1x512x64.Idx) :
    ((cfg0.win 0).blk t).view.emb y = ix3 (bhOf t) (rowOf t (y 1)) (y 2) := by
  obtain ⟨e0, e1, e2, -⟩ := idx_facts t
  funext a; apply Fin.ext
  match a with
  | ⟨0, _⟩ => show win0_0.index t (0 : Fin 3) * 1 + 1 * (y 0).val = t.val / 4; have h0 : (y 0).val < 1 := (y 0).isLt; omega
  | ⟨1, _⟩ => show win0_0.index t (1 : Fin 3) * 512 + 1 * (y 1).val = (t.val % 4) * 512 + (y 1).val; omega
  | ⟨2, _⟩ => show win0_0.index t (2 : Fin 3) * 64 + 1 * (y 2).val = (y 2).val; omega

theorem emb1 (t : Fin cfg0.N) (y : S1x2048x64.Idx) :
    ((cfg0.win 1).blk t).view.emb y = ix3 (bhOf t) (y 1) (y 2) := by
  obtain ⟨-, -, -, e0, e1, e2, -⟩ := idx_facts t
  funext a; apply Fin.ext
  match a with
  | ⟨0, _⟩ => show win0_1.index t (0 : Fin 3) * 1 + 1 * (y 0).val = t.val / 4; have h0 : (y 0).val < 1 := (y 0).isLt; omega
  | ⟨1, _⟩ => show win0_1.index t (1 : Fin 3) * 2048 + 1 * (y 1).val = (y 1).val; omega
  | ⟨2, _⟩ => show win0_1.index t (2 : Fin 3) * 64 + 1 * (y 2).val = (y 2).val; omega

theorem emb2 (t : Fin cfg0.N) (y : S1x2048x64.Idx) :
    ((cfg0.win 2).blk t).view.emb y = ix3 (bhOf t) (y 1) (y 2) := by
  obtain ⟨-, -, -, -, -, -, e0, e1, e2, -⟩ := idx_facts t
  funext a; apply Fin.ext
  match a with
  | ⟨0, _⟩ => show win0_2.index t (0 : Fin 3) * 1 + 1 * (y 0).val = t.val / 4; have h0 : (y 0).val < 1 := (y 0).isLt; omega
  | ⟨1, _⟩ => show win0_2.index t (1 : Fin 3) * 2048 + 1 * (y 1).val = (y 1).val; omega
  | ⟨2, _⟩ => show win0_2.index t (2 : Fin 3) * 64 + 1 * (y 2).val = (y 2).val; omega

theorem emb3 (t : Fin cfg0.N) (y : S1x512x2048.Idx) :
    ((cfg0.win 3).blk t).view.emb y = ix3 (bhOf t) (rowOf t (y 1)) (y 2) := by
  obtain ⟨-, -, -, -, -, -, -, -, -, e0, e1, e2, -⟩ := idx_facts t
  funext a; apply Fin.ext
  match a with
  | ⟨0, _⟩ => show win0_3.index t (0 : Fin 3) * 1 + 1 * (y 0).val = t.val / 4; have h0 : (y 0).val < 1 := (y 0).isLt; omega
  | ⟨1, _⟩ => show win0_3.index t (1 : Fin 3) * 512 + 1 * (y 1).val = (t.val % 4) * 512 + (y 1).val; omega
  | ⟨2, _⟩ => show win0_3.index t (2 : Fin 3) * 2048 + 1 * (y 2).val = (y 2).val; omega

theorem emb4 (t : Fin cfg0.N) (y : S1x512x2048.Idx) :
    ((cfg0.win 4).blk t).view.emb y = ix3 (bhOf t) (rowOf t (y 1)) (y 2) := by
  obtain ⟨-, -, -, -, -, -, -, -, -, -, -, -, e0, e1, e2, -⟩ := idx_facts t
  funext a; apply Fin.ext
  match a with
  | ⟨0, _⟩ => show win0_4.index t (0 : Fin 3) * 1 + 1 * (y 0).val = t.val / 4; have h0 : (y 0).val < 1 := (y 0).isLt; omega
  | ⟨1, _⟩ => show win0_4.index t (1 : Fin 3) * 512 + 1 * (y 1).val = (t.val % 4) * 512 + (y 1).val; omega
  | ⟨2, _⟩ => show win0_4.index t (2 : Fin 3) * 2048 + 1 * (y 2).val = (y 2).val; omega

theorem emb5 (t : Fin cfg0.N) (y : S1x512x64.Idx) :
    ((cfg0.win 5).blk t).view.emb y = ix3 (bhOf t) (rowOf t (y 1)) (y 2) := by
  obtain ⟨-, -, -, -, -, -, -, -, -, -, -, -, -, -, -, e0, e1, e2, -⟩ := idx_facts t
  funext a; apply Fin.ext
  match a with
  | ⟨0, _⟩ => show win0_5.index t (0 : Fin 3) * 1 + 1 * (y 0).val = t.val / 4; have h0 : (y 0).val < 1 := (y 0).isLt; omega
  | ⟨1, _⟩ => show win0_5.index t (1 : Fin 3) * 512 + 1 * (y 1).val = (t.val % 4) * 512 + (y 1).val; omega
  | ⟨2, _⟩ => show win0_5.index t (2 : Fin 3) * 64 + 1 * (y 2).val = (y 2).val; omega

theorem emb6 (t : Fin cfg0.N) (y : S1x512x2048.Idx) :
    ((cfg0.win 6).blk t).view.emb y = ix3 (bhOf t) (rowOf t (y 1)) (y 2) := by
  obtain ⟨-, -, -, -, -, -, -, -, -, -, -, -, -, -, -, -, -, -, e0, e1, e2⟩ := idx_facts t
  funext a; apply Fin.ext
  match a with
  | ⟨0, _⟩ => show win0_6.index t (0 : Fin 3) * 1 + 1 * (y 0).val = t.val / 4; have h0 : (y 0).val < 1 := (y 0).isLt; omega
  | ⟨1, _⟩ => show win0_6.index t (1 : Fin 3) * 512 + 1 * (y 1).val = (t.val % 4) * 512 + (y 1).val; omega
  | ⟨2, _⟩ => show win0_6.index t (2 : Fin 3) * 2048 + 1 * (y 2).val = (y 2).val; omega

/-! ## The arrays the region reads are the arguments with the two leading axes merged -/

theorem V_v0 (c : Dev nD) : V m c main_v0 = shapeCast S32x2048x64 (m ((c : Thread nD τ).loc main_arg0)) shapeCasts_S4x8x2048x64_S32x2048x64 := by
  show StableHlo.after hostOps0 (fun b => m (c, b)) (Proc.devRef .tc main_v0) = _
  after_results
  rfl
theorem V_v1 (c : Dev nD) : V m c main_v1 = shapeCast S32x2048x64 (m ((c : Thread nD τ).loc main_arg1)) shapeCasts_S4x8x2048x64_S32x2048x64 := by
  show StableHlo.after hostOps0 (fun b => m (c, b)) (Proc.devRef .tc main_v1) = _
  after_results
  rfl
theorem V_v2 (c : Dev nD) : V m c main_v2 = shapeCast S32x2048x64 (m ((c : Thread nD τ).loc main_arg2)) shapeCasts_S4x8x2048x64_S32x2048x64 := by
  show StableHlo.after hostOps0 (fun b => m (c, b)) (Proc.devRef .tc main_v2) = _
  after_results
  rfl
theorem V_v3 (c : Dev nD) : V m c main_v3 = shapeCast S32x2048x2048 (m ((c : Thread nD τ).loc main_arg3)) shapeCasts_S4x8x2048x2048_S32x2048x2048 := by
  show StableHlo.after hostOps0 (fun b => m (c, b)) (Proc.devRef .tc main_v3) = _
  after_results
  rfl
theorem V_v4 (c : Dev nD) : V m c main_v4 = shapeCast S32x2048x2048 (m ((c : Thread nD τ).loc main_arg4)) shapeCasts_S4x8x2048x2048_S32x2048x2048 := by
  show StableHlo.after hostOps0 (fun b => m (c, b)) (Proc.devRef .tc main_v4) = _
  after_results
  rfl

/-- A `[4, 8, n, p]` array with its leading axes merged, read at `(x, i, j)`: the entry at `(x / 8, x % 8, i, j)`. -/
theorem merge_apply {n p : Nat} (x : (⟨4, ![4, 8, n, p]⟩ : Shape).Idx → EReal)
    (h : (⟨4, ![4, 8, n, p]⟩ : Shape).ShapeCasts ⟨3, ![32, n, p]⟩) (bh : Fin 32) (i : Fin n) (j : Fin p) :
    shapeCast ⟨3, ![32, n, p]⟩ x h (ix3 bh i j) = x (ix4 (hi bh) (lo bh) i j) := by
  refine shapeCast_apply x h _ _ ?_
  rw [Shape.rowMajor_val_four, Shape.rowMajor_val_three]
  show ((bh.val / 8 * 8 + bh.val % 8) * n + i.val) * p + j.val = (bh.val * n + i.val) * p + j.val
  rw [Nat.div_add_mod']

/-- A `[32, n, p]` array with its leading axis split, read at `(b, h, i, j)`: the entry at `(b · 8 + h, i, j)`. -/
theorem split_apply {n p : Nat} (x : (⟨3, ![32, n, p]⟩ : Shape).Idx → EReal)
    (h : (⟨3, ![32, n, p]⟩ : Shape).ShapeCasts ⟨4, ![4, 8, n, p]⟩) (b : Fin 4) (hh : Fin 8) (i : Fin n) (j : Fin p) :
    shapeCast ⟨4, ![4, 8, n, p]⟩ x h (ix4 b hh i j)
      = x (ix3 (⟨b.val * 8 + hh.val, by have := b.isLt; have := hh.isLt; omega⟩ : Fin 32) i j) := by
  refine shapeCast_apply x h _ _ ?_
  rw [Shape.rowMajor_val_four, Shape.rowMajor_val_three]
  rfl

theorem hi_merge (b : Fin 4) (hh : Fin 8) (hlt : b.val * 8 + hh.val < 32) : hi ⟨b.val * 8 + hh.val, hlt⟩ = b :=
  Fin.ext (by show (b.val * 8 + hh.val) / 8 = b.val; have := hh.isLt; omega)
theorem lo_merge (b : Fin 4) (hh : Fin 8) (hlt : b.val * 8 + hh.val < 32) : lo ⟨b.val * 8 + hh.val, hlt⟩ = hh :=
  Fin.ext (by show (b.val * 8 + hh.val) % 8 = hh.val; have := hh.isLt; omega)

/-! ## The five tiles of a point, entry by entry, in the argument arrays -/

/-- The arguments on core `c`. -/
abbrev aQ (c : Dev nD) : Cert.Attention.QKV := m ((c : Thread nD τ).loc main_arg0)
abbrev aK (c : Dev nD) : Cert.Attention.QKV := m ((c : Thread nD τ).loc main_arg1)
abbrev aV (c : Dev nD) : Cert.Attention.QKV := m ((c : Thread nD τ).loc main_arg2)
abbrev aB (c : Dev nD) : Cert.Attention.SS := m ((c : Thread nD τ).loc main_arg3)
abbrev aG (c : Dev nD) : Cert.Attention.SS := m ((c : Thread nD τ).loc main_arg4)

/-- The tiles point `t` loads. -/
abbrev xq (c : Dev nD) (t : Fin cfg0.N) : Vec Ideal S1x512x64 .f32 := iblk m c 0 t
abbrev xk (c : Dev nD) (t : Fin cfg0.N) : Vec Ideal S1x2048x64 .f32 := iblk m c 1 t
abbrev xv (c : Dev nD) (t : Fin cfg0.N) : Vec Ideal S1x2048x64 .f32 := iblk m c 2 t
abbrev xb (c : Dev nD) (t : Fin cfg0.N) : Vec Ideal S1x512x2048 .f32 := iblk m c 3 t
abbrev xg (c : Dev nD) (t : Fin cfg0.N) : Vec Ideal S1x512x2048 .f32 := iblk m c 4 t

theorem xq_apply (c : Dev nD) (t : Fin cfg0.N) (r : Fin 512) (d : Fin 64) :
    xq m c t (ix3 0 r d) = aQ m c (ix4 (hi (bhOf t)) (lo (bhOf t)) (rowOf t r) d) := by
  show V m c main_v0 (((cfg0.win 0).blk t).view.emb (ix3 0 r d)) = _
  rw [emb0, V_v0]
  exact merge_apply _ _ (bhOf t) (rowOf t r) d

theorem xk_apply (c : Dev nD) (t : Fin cfg0.N) (k : Fin 2048) (d : Fin 64) :
    xk m c t (ix3 0 k d) = aK m c (ix4 (hi (bhOf t)) (lo (bhOf t)) k d) := by
  show V m c main_v1 (((cfg0.win 1).blk t).view.emb (ix3 0 k d)) = _
  rw [emb1, V_v1]
  exact merge_apply _ _ (bhOf t) k d

theorem xv_apply (c : Dev nD) (t : Fin cfg0.N) (k : Fin 2048) (d : Fin 64) :
    xv m c t (ix3 0 k d) = aV m c (ix4 (hi (bhOf t)) (lo (bhOf t)) k d) := by
  show V m c main_v2 (((cfg0.win 2).blk t).view.emb (ix3 0 k d)) = _
  rw [emb2, V_v2]
  exact merge_apply _ _ (bhOf t) k d

theorem xb_apply (c : Dev nD) (t : Fin cfg0.N) (r : Fin 512) (k : Fin 2048) :
    xb m c t (ix3 0 r k) = aB m c (ix4 (hi (bhOf t)) (lo (bhOf t)) (rowOf t r) k) := by
  show V m c main_v3 (((cfg0.win 3).blk t).view.emb (ix3 0 r k)) = _
  rw [emb3, V_v3]
  exact merge_apply _ _ (bhOf t) (rowOf t r) k

theorem xg_apply (c : Dev nD) (t : Fin cfg0.N) (r : Fin 512) (k : Fin 2048) :
    xg m c t (ix3 0 r k) = aG m c (ix4 (hi (bhOf t)) (lo (bhOf t)) (rowOf t r) k) := by
  show V m c main_v4 (((cfg0.win 4).blk t).view.emb (ix3 0 r k)) = _
  rw [emb4, V_v4]
  exact merge_apply _ _ (bhOf t) (rowOf t r) k

/-! ## The output tiles cover their arrays -/

theorem mem_blk5 (t : Fin cfg0.N) (i : S32x2048x64.Idx) :
    i ∈ ((cfg0.win 5).blk t).view.set ↔ ∀ a : Fin 3, win0_5.index t a * S1x512x64.size a ≤ (i a).val ∧ (i a).val < win0_5.index t a * S1x512x64.size a + S1x512x64.size a := by
  show i ∈ ((View.whole main_v5_0).slice (win0_5.rect t)).set ↔ _
  rw [View.set_slice_whole, Rect.mem_set_unit]
  exact Iff.rfl

theorem mem_blk6 (t : Fin cfg0.N) (i : S32x2048x2048.Idx) :
    i ∈ ((cfg0.win 6).blk t).view.set ↔ ∀ a : Fin 3, win0_6.index t a * S1x512x2048.size a ≤ (i a).val ∧ (i a).val < win0_6.index t a * S1x512x2048.size a + S1x512x2048.size a := by
  show i ∈ ((View.whole main_v5_1).slice (win0_6.rect t)).set ↔ _
  rw [View.set_slice_whole, Rect.mem_set_unit]
  exact Iff.rfl

/-- Every entry of the output array is in the tile of the point of its batch-head and row. -/
theorem cover5 (i : S32x2048x64.Idx) :
    ∃ t : Fin cfg0.N, (cfg0.win 5).flush t = true ∧ i ∈ ((cfg0.win 5).blk t).view.set := by
  have h0 : (i 0).val < 32 := (i 0).isLt
  have h1 : (i 1).val < 2048 := (i 1).isLt
  have h2 : (i 2).val < 64 := (i 2).isLt
  refine ⟨pointOf (i 0) (i 1), flush0_5 _, ?_⟩
  rw [mem_blk5]
  obtain ⟨-, -, -, -, -, -, -, -, -, -, -, -, -, -, -, e0, e1, e2, -⟩ := idx_facts (pointOf (i 0) (i 1))
  have ht : (pointOf (i 0) (i 1)).val = (i 0).val * 4 + (i 1).val / 512 := rfl
  intro a
  match a with
  | ⟨0, _⟩ => show win0_5.index (pointOf (i 0) (i 1)) (0 : Fin 3) * 1 ≤ (i 0).val ∧ (i 0).val < win0_5.index (pointOf (i 0) (i 1)) (0 : Fin 3) * 1 + 1; omega
  | ⟨1, _⟩ => show win0_5.index (pointOf (i 0) (i 1)) (1 : Fin 3) * 512 ≤ (i 1).val ∧ (i 1).val < win0_5.index (pointOf (i 0) (i 1)) (1 : Fin 3) * 512 + 512; omega
  | ⟨2, _⟩ => show win0_5.index (pointOf (i 0) (i 1)) (2 : Fin 3) * 64 ≤ (i 2).val ∧ (i 2).val < win0_5.index (pointOf (i 0) (i 1)) (2 : Fin 3) * 64 + 64; omega

/-- Every entry of the weights array is in the tile of the point of its batch-head and row. -/
theorem cover6 (i : S32x2048x2048.Idx) :
    ∃ t : Fin cfg0.N, (cfg0.win 6).flush t = true ∧ i ∈ ((cfg0.win 6).blk t).view.set := by
  have h0 : (i 0).val < 32 := (i 0).isLt
  have h1 : (i 1).val < 2048 := (i 1).isLt
  have h2 : (i 2).val < 2048 := (i 2).isLt
  refine ⟨pointOf (i 0) (i 1), flush0_6 _, ?_⟩
  rw [mem_blk6]
  obtain ⟨-, -, -, -, -, -, -, -, -, -, -, -, -, -, -, -, -, -, e0, e1, e2⟩ := idx_facts (pointOf (i 0) (i 1))
  have ht : (pointOf (i 0) (i 1)).val = (i 0).val * 4 + (i 1).val / 512 := rfl
  intro a
  match a with
  | ⟨0, _⟩ => show win0_6.index (pointOf (i 0) (i 1)) (0 : Fin 3) * 1 ≤ (i 0).val ∧ (i 0).val < win0_6.index (pointOf (i 0) (i 1)) (0 : Fin 3) * 1 + 1; omega
  | ⟨1, _⟩ => show win0_6.index (pointOf (i 0) (i 1)) (1 : Fin 3) * 512 ≤ (i 1).val ∧ (i 1).val < win0_6.index (pointOf (i 0) (i 1)) (1 : Fin 3) * 512 + 512; omega
  | ⟨2, _⟩ => show win0_6.index (pointOf (i 0) (i 1)) (2 : Fin 3) * 2048 ≤ (i 2).val ∧ (i 2).val < win0_6.index (pointOf (i 0) (i 1)) (2 : Fin 3) * 2048 + 2048; omega

/-! ## The results are the region's output arrays with the leading axis split -/

theorem tail_v6 (c : Dev nD) :
    Pipeline.afterTail₀ cfgs (dats m) 0 (V0 m) [hostOps1] c main_v6
      = shapeCast S4x8x2048x64 ((dats m 0 c).arrAt 5 cfg0.N) shapeCasts_S32x2048x64_S4x8x2048x64 := by
  unfold Pipeline.afterTail₀
  show StableHlo.after hostOps1 _ (Proc.devRef .tc main_v6) = _
  after_results
  exact congrArg (fun X => shapeCast S4x8x2048x64 X shapeCasts_S32x2048x64_S4x8x2048x64)
    (Pipeline.withArrays_arr spec0 launch0.win.arr_inj c (V0 m c) (fun w => (dats m 0 c).arrAt w cfg0.N) 5)

theorem tail_v7 (c : Dev nD) :
    Pipeline.afterTail₀ cfgs (dats m) 0 (V0 m) [hostOps1] c main_v7
      = shapeCast S4x8x2048x2048 ((dats m 0 c).arrAt 6 cfg0.N) shapeCasts_S32x2048x2048_S4x8x2048x2048 := by
  unfold Pipeline.afterTail₀
  show StableHlo.after hostOps1 _ (Proc.devRef .tc main_v7) = _
  after_results
  exact congrArg (fun X => shapeCast S4x8x2048x2048 X shapeCasts_S32x2048x2048_S4x8x2048x2048)
    (Pipeline.withArrays_arr spec0 launch0.win.arr_inj c (V0 m c) (fun w => (dats m 0 c).arrAt w cfg0.N) 6)

/-- After the run the two results are the output arrays with the leading axis split, and the arguments are as
    launched. -/
theorem run_arrays : θ_run defs (onTc (τ := τ) (main (F := Ideal))) ⟨m, fun _ => 0, ρ⟩ fun r => ∀ c : Dev nD,
      r.2.mem ((c : Thread nD τ).loc main_v6) = shapeCast S4x8x2048x64 ((dats m 0 c).arrAt 5 cfg0.N) shapeCasts_S32x2048x64_S4x8x2048x64
      ∧ r.2.mem ((c : Thread nD τ).loc main_v7) = shapeCast S4x8x2048x2048 ((dats m 0 c).arrAt 6 cfg0.N) shapeCasts_S32x2048x2048_S4x8x2048x2048
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v6 (Pipeline.mem_restRefs_of main_v6 (by decide) (by decide))).trans (tail_v6 m c),
     ((h c).2 main_v7 (Pipeline.mem_restRefs_of main_v7 (by decide) (by decide))).trans (tail_v7 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.Blocks

end
-- ==== Proof.KernelPayload.lean ====
/-
  The kernel body's two stored values, read at an index.

  The body loads a query block `[1, 512, 64]`, a key block `[1, 2048, 64]`, a distance block and a bias block
  `[1, 512, 2048]`, and a value block `[1, 2048, 64]`.  Its tile of logits at `(r, k)` is
    `(∑ d, (q[r,d] · s) · key[k,d]) + bias[r,k] + c · (dist[r,k] · dist[r,k])`
  (`s` the pattern of `0.125`, `c` that of `-0.5`).  The weights tile is the row softmax of the logits in the product
  form `e k · (1 / D)`: the row maximum and the row sum are lane reductions, kept as a `[512, 1]` column and broadcast
  back over the lanes.  The output tile at `(r, d)` is `∑ k, w[r,k] · v[k,d]`.

  On the extended reals the format changes to and from `bf16` are the identity, a lane maximum is the fold of `max`
  from `-∞`, a lane sum is a finite sum, and a matrix product into the zero accumulator is the sum of the operands'
  products over the contracted axis.  So each stored value, read at one index, is the specification's expression over
  the loaded blocks.
-/
import proofs.«401613_j6262062318237_3_alg».proof.Proof.Gen.KernelIdeal.Skeleton
import proofs.«401613_j6262062318237_3_alg».proof.Proof.Attention
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Payload

open Idealize.ShloMosaic Idealize.ShloMosaic.ValueIdx Idealize.SL.Sem Cert.KernelIdeal Cert.KernelIdeal.Gen

/-! ## The operand indices of the two products -/

theorem lhs_qk_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_qk_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs_qk_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_qk_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

theorem matmul_qk_apply (a : FVec Ideal S512x64 .bf16) (b : FVec Ideal S2048x64 .bf16) (r : Fin 512) (c : Fin 2048) :
    matmul dot_S512x64_S2048x64_S512x2048_1_1_0_0_n_n none a b (constant (F := Ideal) S512x2048 .f32 0x00000000#32) (ix2 r c)
      = ∑ d : Fin 64, a (ix2 r d) * b (ix2 c d) := by
  simp only [matmul]
  rw [Ideal.matmul_constant_zero_apply, ← Equiv.sum_comp (ValueIdx.contrEquiv1 dot_S512x64_S2048x64_S512x2048_1_1_0_0_n_n 64 rfl rfl).symm]
  refine Finset.sum_congr rfl fun k _ => ?_
  have hk := ValueIdx.contrEquiv1_symm_val dot_S512x64_S2048x64_S512x2048_1_1_0_0_n_n 64 rfl rfl k
  have el : dot_S512x64_S2048x64_S512x2048_1_1_0_0_n_n.lhsIdx (ix2 r c) ((ValueIdx.contrEquiv1 dot_S512x64_S2048x64_S512x2048_1_1_0_0_n_n 64 rfl rfl).symm k) = ix2 r k := funext fun a => Fin.ext (by
    match a with
    | ⟨0, _⟩ => exact lhs_qk_0 _ _
    | ⟨1, _⟩ => exact (lhs_qk_1 _ _).trans hk)
  have er : dot_S512x64_S2048x64_S512x2048_1_1_0_0_n_n.rhsIdx (ix2 r c) ((ValueIdx.contrEquiv1 dot_S512x64_S2048x64_S512x2048_1_1_0_0_n_n 64 rfl rfl).symm k) = ix2 c k := funext fun a => Fin.ext (by
    match a with
    | ⟨0, _⟩ => exact rhs_qk_0 _ _
    | ⟨1, _⟩ => exact (rhs_qk_1 _ _).trans hk)
  rw [el, er]

theorem lhs_wv_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_wv_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_wv_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_wv_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

theorem matmul_wv_apply (a : FVec Ideal S512x2048 .bf16) (b : FVec Ideal S2048x64 .bf16) (r : Fin 512) (d : Fin 64) :
    matmul dot_S512x2048_S2048x64_S512x64_1_0_0_1_n_n none a b (constant (F := Ideal) S512x64 .f32 0x00000000#32) (ix2 r d)
      = ∑ k : Fin 2048, a (ix2 r k) * b (ix2 k d) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 r d) ((ValueIdx.contrEquiv1 dot_S512x2048_S2048x64_S512x64_1_0_0_1_n_n 2048 rfl rfl).symm k) = ix2 r k := funext fun a => Fin.ext (by
    match a with
    | ⟨0, _⟩ => exact lhs_wv_0 _ _
    | ⟨1, _⟩ => exact (lhs_wv_1 _ _).trans hk)
  have er : dot_S512x2048_S2048x64_S512x64_1_0_0_1_n_n.rhsIdx (ix2 r d) ((ValueIdx.contrEquiv1 dot_S512x2048_S2048x64_S512x64_1_0_0_1_n_n 2048 rfl rfl).symm k) = ix2 k d := funext fun a => Fin.ext (by
    match a with
    | ⟨0, _⟩ => exact (rhs_wv_0 _ _).trans hk
    | ⟨1, _⟩ => exact rhs_wv_1 _ _)
  rw [el, er]

theorem pay1_apply (w : FVec Ideal S512x2048 .f32) (xv : Vec Ideal S1x2048x64 .f32) (r : Fin 512) (d : Fin 64) :
    Cert.KernelIdeal.Gen.k0_pay1 (F := Ideal) w xv (ix3 0 r d) = ∑ k : Fin 2048, w (ix2 r k) * xv (ix3 0 k d) := by
  unfold Gen.k0_pay1
  rw [shapeCast_ab_1ab_apply, matmul_wv_apply]
  refine Finset.sum_congr rfl fun k _ => ?_
  rw [truncf_apply, truncf_apply, shapeCast_1ab_ab_apply]

/-! ## The keepdims forms of a row statistic, an exponential and the two reductions, read at an index -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- An exponential at an index is the exponential of the element. -/
theorem exp_apply {s : Shape} {φ : FTy} (a : FVec Ideal s φ) (i : s.Idx) : exp a i = Ideal.exp (a i) := rfl

/-- A scalar constant at the ideal values is the extended real its word encodes. -/
theorem scalar_ofBits (φ : FTy) (b : BitVec φ.bits) : Scalar.ofBits (F := Ideal) φ b = Ideal.ofBits φ b := rfl

/-- The index over row `r` of a `[512, 2048]` tile with lane `k` inserted is `(r, k)`. -/
theorem lift_row (h : S512x2048.Reduces [1] S512) (r : Fin 512) (k : Fin 2048) : h.lift (ix1 r) k = ix2 r k :=
  funext fun a => Fin.ext (by
    match a with
    | ⟨0, _⟩ => rfl
    | ⟨1, _⟩ => rfl)

/-- The lane maximum of a tile at row `r` is the row's maximum. -/
theorem laneMax_apply (x : FVec Ideal S512x2048 .f32) (h : S512x2048.Reduces [1] S512) (hφ : FKind.Formats .f32)
    (hacc : (0xFF800000#32 : BitVec 32) = FKind.maximumf.neutral .f32 hφ) (r : Fin 512) :
    multiReduction (F := Ideal) .maximumf [1] S512 x 0xFF800000#32 h hφ hacc (ix1 r)
      = Cert.Attention.rowMax (fun k : Fin 2048 => x (ix2 r k)) := by
  rw [Ideal.multiReduction_maximumf_single]
  unfold Cert.Attention.rowMax
  have e : x ∘ h.lift (ix1 r) = fun k : Fin 2048 => x (ix2 r k) := funext fun k => congrArg x (lift_row h r k)
  rw [e]
  rfl

/-- The lane sum of a tile at row `r` is the sum of the row. -/
theorem laneSum_apply (x : FVec Ideal S512x2048 .f32) (h : S512x2048.Reduces [1] S512) (hφ : FKind.Formats .f32)
    (hacc : (0x00000000#32 : BitVec 32) = FKind.add.neutral .f32 hφ) (r : Fin 512) :
    multiReduction (F := Ideal) .add [1] S512 x 0x00000000#32 h hφ hacc (ix1 r) = ∑ k : Fin 2048, x (ix2 r k) := by
  rw [Ideal.multiReduction_add_single]
  exact Finset.sum_congr rfl fun k _ => congrArg x (lift_row h r k)

/-! ## The tile of logits and its row softmax, as the body computes them -/

/-- The logits of row r of a tile, from the loaded blocks. -/
def blockLogit (xq : Vec Ideal S1x512x64 .f32) (xk : Vec Ideal S1x2048x64 .f32) (xg xb : Vec Ideal S1x512x2048 .f32) (r : Fin 512) : Fin 2048 → EReal := fun k =>
  (∑ d : Fin 64, (xq (ix3 0 r d) * Cert.Attention.scaleLit) * xk (ix3 0 k d)) + xb (ix3 0 r k)
    + Ideal.ofBits .f32 0xBF000000#32 * (xg (ix3 0 r k) * xg (ix3 0 r k))

/-- The `[512, 2048]` tile of logits: the scaled query block times the key block transposed, plus the bias block, plus
    `-0.5` times the square of the distance block. -/
def logitTile (xq : Vec Ideal S1x512x64 .f32) (xk : Vec Ideal S1x2048x64 .f32) (xg xb : Vec Ideal S1x512x2048 .f32) :
    FVec Ideal S512x2048 .f32 :=
  addf
    (addf
      (matmul dot_S512x64_S2048x64_S512x2048_1_1_0_0_n_n none
        (truncf .bf16 (mulf (shapeCast S512x64 xq shapeCasts_S1x512x64_S512x64)
          (broadcast S512x64 (Scalar.ofBits (F := Ideal) .f32 0x3E000000#32))) bitsLt_bf16_f32)
        (truncf .bf16 (shapeCast S2048x64 xk shapeCasts_S1x2048x64_S2048x64) bitsLt_bf16_f32)
        (constant (F := Ideal) S512x2048 .f32 0x00000000#32))
      (shapeCast S512x2048 xb shapeCasts_S1x512x2048_S512x2048))
    (mulf (broadcast S512x2048 (Scalar.ofBits (F := Ideal) .f32 0xBF000000#32))
      (mulf (shapeCast S512x2048 xg shapeCasts_S1x512x2048_S512x2048) (shapeCast S512x2048 xg shapeCasts_S1x512x2048_S512x2048)))

/-- The exponentials of a tile shifted, row by row, by the row's maximum (kept as a column and broadcast back). -/
def expTile (x : FVec Ideal S512x2048 .f32) : FVec Ideal S512x2048 .f32 :=
  exp (subf x (broadcastTo S512x2048
    (shapeCast S512x1 (multiReduction (F := Ideal) .maximumf [1] S512 x 0xFF800000#32 reduces_S512x2048_S512 (.inl rfl) rfl)
      shapeCasts_S512_S512x1) broadcasts_S512x1_S512x2048))

/-- The exponentials times the reciprocal of their row sums (kept as a column and broadcast back). -/
def softTile (x : FVec Ideal S512x2048 .f32) : FVec Ideal S512x2048 .f32 :=
  mulf (expTile x) (broadcastTo S512x2048
    (divf (broadcast S512x1 (Scalar.ofBits (F := Ideal) .f32 0x3F800000#32))
      (shapeCast S512x1 (multiReduction (F := Ideal) .add [1] S512 (expTile x) 0x00000000#32 reduces_S512x2048_S512 (.inl rfl) rfl)
        shapeCasts_S512_S512x1)) broadcasts_S512x1_S512x2048)

/-- The weights tile is the row softmax of the tile of logits: the same operations, regrouped. -/
theorem pay2_eq (xq : Vec Ideal S1x512x64 .f32) (xk : Vec Ideal S1x2048x64 .f32) (xg xb : Vec Ideal S1x512x2048 .f32) :
    Cert.KernelIdeal.Gen.k0_pay2 (F := Ideal) xq xk xg xb = softTile (logitTile xq xk xg xb) := rfl

theorem logitTile_apply (xq : Vec Ideal S1x512x64 .f32) (xk : Vec Ideal S1x2048x64 .f32) (xg xb : Vec Ideal S1x512x2048 .f32)
    (r : Fin 512) (k : Fin 2048) : logitTile xq xk xg xb (ix2 r k) = blockLogit xq xk xg xb r k := by
  unfold logitTile blockLogit
  rw [addf_apply, addf_apply, matmul_qk_apply, mulf_apply, mulf_apply, broadcast_apply, scalar_ofBits]
  simp only [shapeCast_1ab_ab_apply]
  refine congrArg (· + _) (congrArg (· + _) (Finset.sum_congr rfl fun d _ => ?_))
  rw [truncf_apply, truncf_apply, mulf_apply, broadcast_apply, shapeCast_1ab_ab_apply, shapeCast_1ab_ab_apply]
  rfl

theorem expTile_apply (x : FVec Ideal S512x2048 .f32) (r : Fin 512) (k : Fin 2048) :
    expTile x (ix2 r k) = Cert.Attention.rowExp (fun k : Fin 2048 => x (ix2 r k)) k := by
  unfold expTile
  rw [exp_apply, subf_apply, broadcastTo_a1_ab_apply, shapeCast_a_a1_apply]
  exact congrArg (fun m => Ideal.exp (x (ix2 r k) - m)) (laneMax_apply x _ _ _ r)

theorem softTile_apply (x : FVec Ideal S512x2048 .f32) (r : Fin 512) (c : Fin 2048) :
    softTile x (ix2 r c) = Cert.Attention.softMul (fun k : Fin 2048 => x (ix2 r k)) c := by
  unfold softTile
  rw [mulf_apply, broadcastTo_a1_ab_apply, divf_apply, broadcast_apply, shapeCast_a_a1_apply, expTile_apply]
  have hs := laneSum_apply (expTile x) reduces_S512x2048_S512 (.inl rfl) rfl r
  have e : (∑ k : Fin 2048, expTile x (ix2 r k)) = Cert.Attention.rowDen (fun k : Fin 2048 => x (ix2 r k)) :=
    Finset.sum_congr rfl fun k _ => expTile_apply x r k
  exact congrArg (fun m => Cert.Attention.rowExp (fun k : Fin 2048 => x (ix2 r k)) c
    * Ideal.div (Ideal.ofBits .f32 0x3F800000#32) m) (hs.trans e)

/-! ## The stored values at an index -/

theorem pay2_apply (xq : Vec Ideal S1x512x64 .f32) (xk : Vec Ideal S1x2048x64 .f32) (xg xb : Vec Ideal S1x512x2048 .f32) (r : Fin 512) (c : Fin 2048) :
    Cert.KernelIdeal.Gen.k0_pay2 (F := Ideal) xq xk xg xb (ix2 r c) = Cert.Attention.softMul (blockLogit xq xk xg xb r) c := by
  rw [pay2_eq, softTile_apply]
  exact congrArg (fun a => Cert.Attention.softMul a c) (funext fun k => logitTile_apply xq xk xg xb r k)

theorem pay3_apply (xq : Vec Ideal S1x512x64 .f32) (xk : Vec Ideal S1x2048x64 .f32) (xg xb : Vec Ideal S1x512x2048 .f32) (r : Fin 512) (c : Fin 2048) :
    Cert.KernelIdeal.Gen.k0_pay3 (F := Ideal) xq xk xg xb (ix3 0 r c) = Cert.Attention.softMul (blockLogit xq xk xg xb r) c := by
  unfold Gen.k0_pay3
  rw [shapeCast_ab_1ab_apply]
  exact pay2_apply xq xk xg xb r c

end Cert.KernelIdeal.Payload

end
-- ==== Proof.KernelValue.lean ====
/-
  What the attention kernel leaves in its two result arrays.

  At grid point `t` (batch-head `x = t / 4`, query rows `(t % 4) · 512 + r`) the body stores, at row `r` and
  column `k` of the weights tile, the softmax weight of the logits of that row — the logits read off the loaded
  tiles, which are the logits of query row `(x / 8, x % 8, (t % 4) · 512 + r)` of the argument arrays — and, at row
  `r` and column `d` of the output tile, the sum over `k` of that weight times the value tile at `(k, d)`.
  So every point writes back a tile of ONE function of the arguments, the tiles cover the two arrays, and the
  arrays after the run are the attention weights and the attention output with the two leading axes merged;
  splitting the axis again gives the results.
-/
import proofs.«401613_j6262062318237_3_alg».proof.Proof.KernelBlocks
import proofs.«401613_j6262062318237_3_alg».proof.Proof.KernelPayload

set_option maxRecDepth 16384

noncomputable section

namespace Cert.KernelIdeal.Tiles

open Cert.KernelIdeal Cert.KernelIdeal.Gen Cert.KernelIdeal.Blocks Cert.KernelIdeal.Payload
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-! ## The logits of a tile row are the logits of an array row -/

theorem blockLogit_eq (c : Dev nD) (t : Fin cfg0.N) (r : Fin 512) :
    blockLogit (xq m c t) (xk m c t) (xg m c t) (xb m c t) r
      = Cert.Attention.logit Cert.Attention.scaleLit (aQ m c) (aK m c) (aB m c) (aG m c)
          (hi (bhOf t)) (lo (bhOf t)) (rowOf t r) := by
  funext k
  unfold blockLogit Cert.Attention.logit
  rw [xb_apply, xg_apply]
  refine congrArg (· + _ + _) (Finset.sum_congr rfl fun d _ => ?_)
  rw [xq_apply, xk_apply]

/-! ## The two arrays as functions of the arguments -/

/-- The attention weights with the two leading axes merged. -/
def weights3 (c : Dev nD) : S32x2048x2048.Idx → EReal := fun i =>
  Cert.Attention.weights (aQ m c) (aK m c) (aB m c) (aG m c) (ix4 (hi (i 0)) (lo (i 0)) (i 1) (i 2))

/-- The attention output with the two leading axes merged. -/
def output3 (c : Dev nD) : S32x2048x64.Idx → EReal := fun i =>
  Cert.Attention.output (aQ m c) (aK m c) (aV m c) (aB m c) (aG m c) (ix4 (hi (i 0)) (lo (i 0)) (i 1) (i 2))

/-! ## What a point stores -/

theorem tile6 (c : Dev nD) (t : Fin cfg0.N) (j : S1x512x2048.Idx) :
    k0_pay3 (F := Ideal) (xq m c t) (xk m c t) (xg m c t) (xb m c t) j
      = weights3 m c (((cfg0.win 6).blk t).view.emb j) := by
  obtain ⟨z, r, k, rfl⟩ : ∃ (z : Fin 1) (r : Fin 512) (k : Fin 2048), j = ix3 z r k := ⟨j 0, j 1, j 2, eq_ix3 j⟩
  obtain rfl : z = 0 := Subsingleton.elim _ _
  rw [pay3_apply, emb6, blockLogit_eq]
  rfl

theorem tile5 (c : Dev nD) (t : Fin cfg0.N) (j : S1x512x64.Idx) :
    k0_pay1 (F := Ideal) (k0_pay2 (F := Ideal) (xq m c t) (xk m c t) (xg m c t) (xb m c t)) (xv m c t) j
      = output3 m c (((cfg0.win 5).blk t).view.emb j) := by
  obtain ⟨z, r, d, rfl⟩ : ∃ (z : Fin 1) (r : Fin 512) (d : Fin 64), j = ix3 z r d := ⟨j 0, j 1, j 2, eq_ix3 j⟩
  obtain rfl : z = 0 := Subsingleton.elim _ _
  rw [pay1_apply, emb5]
  show _ = ∑ k : Fin 2048, Cert.Attention.weights (aQ m c) (aK m c) (aB m c) (aG m c)
      (ix4 (hi (bhOf t)) (lo (bhOf t)) (rowOf t r) k) * aV m c (ix4 (hi (bhOf t)) (lo (bhOf t)) k d)
  refine Finset.sum_congr rfl fun k _ => ?_
  rw [pay2_apply, blockLogit_eq, xv_apply]
  rfl

/-- What point `t` writes back to the weights array is its tile of `weights3`. -/
theorem flushed6_eq (c : Dev nD) (t : Fin cfg0.N) :
    (dats m 0 c).flushed 6 t = ((cfg0.win 6).blk t).view.read (Elt Ideal) (weights3 m c) := by
  show (cfg0.win 6).cut (grid0.coords t) ((dats m 0 c).after 6 t) = _
  rw [after0_6]
  unfold out0_6
  rw [View.canon_unit_zero hz3]
  simp only [View.ld_unit_zero (S := S1x512x64) hz3, View.ld_unit_zero (S := S1x2048x64) hz3,
    View.ld_unit_zero (S := S1x512x2048) hz3]
  funext j
  exact tile6 m c t j

/-- What point `t` writes back to the output array is its tile of `output3`. -/
theorem flushed5_eq (c : Dev nD) (t : Fin cfg0.N) :
    (dats m 0 c).flushed 5 t = ((cfg0.win 5).blk t).view.read (Elt Ideal) (output3 m c) := by
  show (cfg0.win 5).cut (grid0.coords t) ((dats m 0 c).after 5 t) = _
  rw [after0_5]
  unfold out0_5
  rw [View.canon_unit_zero hz3]
  simp only [View.ld_unit_zero (S := S1x512x64) hz3, View.ld_unit_zero (S := S1x2048x64) hz3,
    View.ld_unit_zero (S := S1x512x2048) hz3]
  funext j
  exact tile5 m c t j

/-! ## The arrays after the run -/

theorem final6 (c : Dev nD) : (dats m 0 c).arrAt 6 cfg0.N = weights3 m c :=
  (dats m 0 c).arrAt_eq_of_cover 6 (weights3 m c) (fun t _ => flushed6_eq m c t) cover6

theorem final5 (c : Dev nD) : (dats m 0 c).arrAt 5 cfg0.N = output3 m c :=
  (dats m 0 c).arrAt_eq_of_cover 5 (output3 m c) (fun t _ => flushed5_eq m c t) cover5

/-- The second result: the attention weights. -/
theorem result_weights (c : Dev nD) :
    shapeCast S4x8x2048x2048 ((dats m 0 c).arrAt 6 cfg0.N) shapeCasts_S32x2048x2048_S4x8x2048x2048
      = Cert.Attention.weights (aQ m c) (aK m c) (aB m c) (aG m c) := by
  rw [final6]
  funext i
  obtain ⟨b, h, q, k, rfl⟩ : ∃ b h q k, i = ix4 b h q k := ⟨i 0, i 1, i 2, i 3, eq_ix4 i⟩
  rw [split_apply]
  show Cert.Attention.weights (aQ m c) (aK m c) (aB m c) (aG m c) (ix4 (hi ⟨b.val * 8 + h.val, _⟩) (lo ⟨b.val * 8 + h.val, _⟩) q k) = _
  rw [hi_merge, lo_merge]

/-- The first result: the attention output. -/
theorem result_output (c : Dev nD) :
    shapeCast S4x8x2048x64 ((dats m 0 c).arrAt 5 cfg0.N) shapeCasts_S32x2048x64_S4x8x2048x64
      = Cert.Attention.output (aQ m c) (aK m c) (aV m c) (aB m c) (aG m c) := by
  rw [final5]
  funext i
  obtain ⟨b, h, q, d, rfl⟩ : ∃ b h q d, i = ix4 b h q d := ⟨i 0, i 1, i 2, i 3, eq_ix4 i⟩
  rw [split_apply]
  show Cert.Attention.output (aQ m c) (aK m c) (aV m c) (aB m c) (aG m c) (ix4 (hi ⟨b.val * 8 + h.val, _⟩) (lo ⟨b.val * 8 + h.val, _⟩) q d) = _
  rw [hi_merge, lo_merge]

/-! ## The run -/

/-- Every weakly fair execution of the idealized kernel terminates with its results at the attention output and
    the attention weights of its arguments, the arguments unchanged. -/
theorem run : θ_run defs (onTc (τ := τ) (main (F := Ideal))) ⟨m, fun _ => 0, ρ⟩ fun r => ∀ c : Dev nD,
      r.2.mem ((c : Thread nD τ).loc main_v6) = Cert.Attention.output (aQ m c) (aK m c) (aV m c) (aB m c) (aG m c)
      ∧ r.2.mem ((c : Thread nD τ).loc main_v7) = Cert.Attention.weights (aQ m c) (aK m c) (aB m c) (aG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨(h c).1.trans (result_output m c), (h c).2.1.trans (result_weights m c), (h c).2.2⟩)
    (Blocks.run_arrays m ρ)

end Cert.KernelIdeal.Tiles

end
-- ==== Proof.lean ====
/-
  Scaled dot-product attention with an additive bias and a Gaussian distance penalty: a tiled kernel against
  its array reference, equal over the extended reals on finite inputs.

  Both programs compute, for every batch `b`, head `h` and query row `q`, the logits
    `a k = (∑ d, (Q[b,h,q,d] · s) · K[b,h,k,d]) + B[b,h,q,k] + (-1/2) · G[b,h,q,k]²`,
  the softmax of the row `a` (shifted by its maximum), and the weighted sum of the value rows.  They differ in
  three places, none of which changes the value on real inputs:
  * the scale `s` is the literal `1/8` in the kernel and `1 / √64` in the reference: one number;
  * the kernel multiplies each exponential by the reciprocal `1 / D` of the row's denominator, the reference divides
    by `D`: equal as soon as `D ≠ 0`, and for a row of real logits the maximum is attained, one exponential is `1`
    and `D ≥ 1` (this is where the finiteness precondition is used: a row holding `+∞` would give `D = 0`, and then
    `0 · (1 / 0) = 0` but `0 / 0` is the bottom element);
  * the kernel works tile by tile — 512 query rows of one batch-head at a time, the two leading axes merged —
    and its products accumulate into a zero tile; the reference works on whole arrays.  Every tile is a tile of one
    function of the arguments and the tiles cover the results.
  The idealization rewrote nothing, so `preserves` is trivial; the three frames are the two kernels' frame runs and
  the reference's run.
-/
import proofs.«401613_j6262062318237_3_alg».proof.Defs
import proofs.«401613_j6262062318237_3_alg».proof.Proof.Gen.Kernel
import proofs.«401613_j6262062318237_3_alg».proof.Proof.Gen.Kernel.Skeleton
import proofs.«401613_j6262062318237_3_alg».proof.Proof.Gen.Kernel.Launch
import proofs.«401613_j6262062318237_3_alg».proof.Proof.Gen.Kernel.Points
import proofs.«401613_j6262062318237_3_alg».proof.Proof.Gen.Kernel.Frame
import proofs.«401613_j6262062318237_3_alg».proof.Proof.Gen.KernelIdeal
import proofs.«401613_j6262062318237_3_alg».proof.Proof.Gen.KernelIdeal.Skeleton
import proofs.«401613_j6262062318237_3_alg».proof.Proof.Gen.KernelIdeal.Launch
import proofs.«401613_j6262062318237_3_alg».proof.Proof.Gen.KernelIdeal.Points
import proofs.«401613_j6262062318237_3_alg».proof.Proof.Gen.KernelIdeal.Frame
import proofs.«401613_j6262062318237_3_alg».proof.Proof.Gen.ReferenceIdeal
import proofs.«401613_j6262062318237_3_alg».proof.Proof.Gen.Pre_finite_inputs
import proofs.«401613_j6262062318237_3_alg».proof.Proof.Gen.ReferenceIdeal.Run
import proofs.«401613_j6262062318237_3_alg».proof.Proof.Gen.ReferenceIdeal.Read
import proofs.«401613_j6262062318237_3_alg».proof.Proof.AttentionLaws
import proofs.«401613_j6262062318237_3_alg».proof.Proof.RefAttention
import proofs.«401613_j6262062318237_3_alg».proof.Proof.InputsReal
import proofs.«401613_j6262062318237_3_alg».proof.Proof.KernelValue
import Idealize.ShloMosaic.Adequacy
import Idealize.ShloMosaic.Init

noncomputable section

namespace Cert.Proof

open Idealize.ShloMosaic Idealize.SL.Sem Cert.KernelIdeal.Blocks

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- On finite inputs the kernel ends at the attention output and weights of its arguments (product form, literal
    scale), the reference at the quotient form under the computed scale; real inputs make the two forms one. -/
theorem algebraic : Cert.algebraic_KernelIdeal_ReferenceIdeal := by
  intro m ρ m' ρ' hpre hagree
  refine ⟨fun c => Cert.Attention.output (aQ m c) (aK m c) (aV m c) (aB m c) (aG m c),
    fun c => Cert.Attention.weights (aQ m c) (aK m c) (aB m c) (aG m c), Cert.KernelIdeal.Tiles.run m ρ, ?_⟩
  refine (θ_run Cert.ReferenceIdeal.defs _ _).mono (fun _ h c => ?_) (Cert.ReferenceIdeal.Value.run (F := Ideal) m' ρ')
  obtain ⟨hQ, hK, -, hB, hG⟩ := Cert.Proof.InputsReal.isReal_of_pre (aQ m c) (aK m c) (aV m c) (aB m c) (aG m c) (hpre c)
  refine ⟨(h c).1.trans ?_, (h c).2.1.trans ?_, (h c).2.2⟩
  · rw [(hagree c).1, (hagree c).2.1, (hagree c).2.2.1, (hagree c).2.2.2.1, (hagree c).2.2.2.2]
    exact (Cert.ReferenceIdeal.Read.val_main_v21_eq (F := Ideal) (aQ m c) (aK m c) (aV m c) (aB m c) (aG m c)).trans
      ((Cert.ReferenceIdeal.RefValue.output_eq (aQ m c) (aK m c) (aV m c) (aB m c) (aG m c)).trans
        (Cert.Attention.outputRef_eq (aV m c) hQ hK hB hG))
  · rw [(hagree c).1, (hagree c).2.1, (hagree c).2.2.2.1, (hagree c).2.2.2.2]
    exact (Cert.ReferenceIdeal.Read.val_main_v20_eq (F := Ideal) (aQ m c) (aK m c) (aB m c) (aG m c)).trans
      ((Cert.ReferenceIdeal.RefValue.weights_eq (aQ m c) (aK m c) (aB m c) (aG m c)).trans
        (Cert.Attention.weightsRef_eq hQ hK hB hG))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
